-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S512x128 : Shape := ⟨2, ![512, 128]⟩
abbrev S512 : Shape := ⟨1, ![512]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x4096x128 .f32) (main_arg1 : FVec F S8x4096x128 .f32) (main_arg2 : FVec F S8x4096x128 .f32) (main_arg3 : FVec F S512x128 .f32) (main_arg4 : FVec F S512 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  let main_v9 : FVec F S8x4096x128 .f32 := Host.absf main_arg2
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_c_3 : IVec S_ 1 := constantI S_ 1 1#1
  let main_v12 : IVec S_ 1 := (fun x v => Host.reduce IntOp.andi x v reducesTo_S8x4096x128_S_d0_1_2 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S8x4096x128 : Shape := ⟨3, ![8, 4096, 128]⟩
abbrev S512x128 : Shape := ⟨2, ![512, 128]⟩
abbrev S512 : Shape := ⟨1, ![512]⟩
abbrev S128x512 : Shape := ⟨2, ![128, 512]⟩
abbrev S8x4096x512 : Shape := ⟨3, ![8, 4096, 512]⟩
abbrev S1x1024x128 : Shape := ⟨3, ![1, 1024, 128]⟩
abbrev S1x4096x128 : Shape := ⟨3, ![1, 4096, 128]⟩
abbrev S1x1024x512 : Shape := ⟨3, ![1, 1024, 512]⟩
abbrev S1024x1 : Shape := ⟨2, ![1024, 1]⟩
abbrev S1024x128 : Shape := ⟨2, ![1024, 128]⟩
abbrev S1x2048x128 : Shape := ⟨3, ![1, 2048, 128]⟩
abbrev S2048x128 : Shape := ⟨2, ![2048, 128]⟩
abbrev S128x2048 : Shape := ⟨2, ![128, 2048]⟩
abbrev S1024x2048 : Shape := ⟨2, ![1024, 2048]⟩
abbrev S1024 : Shape := ⟨1, ![1024]⟩
abbrev S1024x512 : Shape := ⟨2, ![1024, 512]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S512x128, .f32⟩
  | .hbm, ⟨4, _⟩ => ⟨S512, .f32⟩
  | .hbm, ⟨5, _⟩ => ⟨S8x4096x128, .bf16⟩
  | .hbm, ⟨6, _⟩ => ⟨S8x4096x128, .bf16⟩
  | .hbm, ⟨7, _⟩ => ⟨S8x4096x128, .bf16⟩
  | .hbm, ⟨8, _⟩ => ⟨S128x512, .f32⟩
  | .hbm, ⟨9, _⟩ => ⟨S128x512, .bf16⟩
  | .hbm, ⟨10, _⟩ => ⟨S8x4096x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S128x512, .bf16⟩
  | .local _ .vmem, ⟨7, _⟩ => ⟨S512, .f32⟩
  | .local _ .vmem, ⟨8, _⟩ => ⟨S1x1024x512, .f32⟩
  | .local _ .vmem, ⟨9, _⟩ => ⟨S1x1024x512, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 2], ![false, false, false]⟩

def k0_mult1 (i : grid0.Coords) : BitVec 32 :=
  let arg2 : BitVec 32 := BitVec.ofNat 32 (i 2).val
  let c2048_i32 : BitVec 32 := 2048#32
  let v3 : BitVec 32 := Scalar.muli arg2 c2048_i32
  v3
def k0_off1 (i : grid0.Coords) : Fin 3 → Nat :=
  let c0 : Index := 0#32
  let arg2 : BitVec 32 := BitVec.ofNat 32 (i 2).val
  let c2048_i32 : BitVec 32 := 2048#32
  let v3 : BitVec 32 := Scalar.muli arg2 c2048_i32
  let v4 : BitVec 32 := v3
  let v5 : Index := Scalar.indexCast v4
  let c0_1 : Index := 0#32
  ![0, v5.toNat, 0]
def k0_cond2 (i : grid0.Coords) : BitVec 1 :=
  let arg2 : BitVec 32 := BitVec.ofNat 32 (i 2).val
  let c1_i32 : BitVec 32 := 1#32
  let v46 : BitVec 1 := Scalar.cmpi .eq arg2 c1_i32
  let v47 : BitVec 32 := Scalar.extui v46
  let c0_i32_23 : BitVec 32 := 0#32
  let v48 : BitVec 1 := Scalar.cmpi .ne v47 c0_i32_23
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  transposes_S512x128_S128x512_1_0 : S512x128.Transposes [1, 0] S128x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S2048x128_p1_0_S128x2048 : S2048x128.Transposes [1, 0] S128x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x128_S128x2048_S1024x2048_1_0_0_1_n_n_wf : DotDims.WF S1024x128 S128x2048 S1024x2048 [1] [0] [0] [1] [] []
  dot_S1024x2048_S2048x128_S1024x128_1_0_0_1_n_n_wf : DotDims.WF S1024x2048 S2048x128 S1024x128 [1] [0] [0] [1] [] []
  dot_S1024x128_S128x512_S1024x512_1_0_0_1_n_n_wf : DotDims.WF S1024x128 S128x512 S1024x512 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S1x2048x128.size a ≤ S1x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x4096x128.size a
  hwx0_0 : ∀ i : grid0.Coords, EltTy.bits .bf16 = 32 ∨ (Rect.block (s := S8x4096x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S8x4096x128.size a
  hwx0_1 : ∀ i : grid0.Coords, EltTy.bits .bf16 = 32 ∨ (Rect.block (s := S8x4096x128) S1x4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S8x4096x128.size a
  hwx0_2 : ∀ i : grid0.Coords, EltTy.bits .bf16 = 32 ∨ (Rect.block (s := S8x4096x128) S1x4096x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x4096x512.size a
  hwx0_5 : ∀ i : grid0.Coords, EltTy.bits .f32 = 32 ∨ (Rect.block (s := S8x4096x512) S1x1024x512.size (cc0_transform_5 i) (hinb0_5 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S512x128 : Shape := ⟨2, ![512, 128]⟩
abbrev S512 : Shape := ⟨1, ![512]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x4096x512 : Shape := ⟨3, ![8, 4096, 512]⟩
abbrev S1x1x512 : Shape := ⟨3, ![1, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S512x128, .f32⟩
  | .hbm, ⟨4, _⟩ => ⟨S512, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x4096x128, .f32⟩
  | .hbm, ⟨24, _⟩ => ⟨S8x4096x512, .f32⟩
  | .hbm, ⟨25, _⟩ => ⟨S1x1x512, .f32⟩
  | .hbm, ⟨26, _⟩ => ⟨S8x4096x512, .f32⟩
  | .hbm, ⟨27, _⟩ => ⟨S8x4096x512, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x128_S8x4096x128_S8x4096x4096_2_2_1_1_0_0_wf : DotDims.WF S8x4096x128 S8x4096x128 S8x4096x4096 [2] [2] [1] [1] [0] [0]
  dot_S8x4096x4096_S8x4096x128_S8x4096x128_2_1_1_2_0_0_wf : DotDims.WF S8x4096x4096 S8x4096x128 S8x4096x128 [2] [1] [1] [2] [0] [0]
  dot_S8x4096x128_S512x128_S8x4096x512_2_1_01_0_n_n_wf : DotDims.WF S8x4096x128 S512x128 S8x4096x512 [2] [1] [0, 1] [0] [] []

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf
def dot_S8x4096x128_S512x128_S8x4096x512_2_1_01_0_n_n : DotDims S8x4096x128 S512x128 S8x4096x512 where
  lhsContracting := [2]
  rhsContracting := [1]
  lhsNonContracting := [0, 1]
  rhsNonContracting := [0]
  lhsBatch := []
  rhsBatch := []
  wf := dot_S8x4096x128_S512x128_S8x4096x512_2_1_01_0_n_n_wf

class Facts : Prop extends Facts₀ where

variable [Facts]
-- ==== Proof.Spec.lean ====
/-
  Scaled dot-product attention followed by a linear layer, written twice over the extended reals.

  For batch `b`, query row `n` and key row `m` the score is `(∑ d, Q[b,n,d] · K[b,m,d]) · c` with `c` the f32 nearest to
  1/√128 (the same literal in both programs). The reference takes the softmax of a row of 4096 scores in one
  go: shift by the row maximum, exponentiate, divide each term by the row sum, and contract with V. The kernel
  walks the row in two tiles of 2048 keys with the online-softmax recurrence: a running maximum, a running sum and a running
  numerator that are rescaled by `exp (old maximum - new maximum)` at each tile, one division at the end.
  Both then apply `· Wᵀ + bias`.
-/
import Idealize.ShloMosaic.PureOps.Ideal
import Idealize.ShloMosaic.Lib.ValueIdx

noncomputable section

open Idealize.ShloMosaic Idealize.ShloMosaic.ValueIdx

namespace Cert.Attn

/-! ## One row of scores -/

/-- The running maximum after a tile of scores `s`, from `mprev`. -/
def stepM (mprev : EReal) (s : Fin 2048 → EReal) : EReal := max mprev (Finset.univ.fold max ⊥ s)
/-- The factor that rescales what was accumulated under the old maximum. -/
def stepA (mprev : EReal) (s : Fin 2048 → EReal) : EReal := Ideal.exp (mprev - stepM mprev s)
/-- The tile's unnormalized weights under the new maximum. -/
def stepP (mprev : EReal) (s : Fin 2048 → EReal) (k : Fin 2048) : EReal := Ideal.exp (s k - stepM mprev s)
/-- The running sum of weights. -/
def stepL (mprev lprev : EReal) (s : Fin 2048 → EReal) : EReal := stepA mprev s * lprev + ∑ k, stepP mprev s k
/-- The running weighted sum of one column of values. -/
def stepAcc (mprev accprev : EReal) (s v : Fin 2048 → EReal) : EReal :=
  stepA mprev s * accprev + ∑ k, stepP mprev s k * v k

/-- Two online-softmax steps from the reset state (maximum -∞, sum 0, numerator 0), then the quotient. -/
def flash (s0 s1 v0 v1 : Fin 2048 → EReal) : EReal :=
  Ideal.div (stepAcc (stepM ⊥ s0) (stepAcc ⊥ 0 s0 v0) s1 v1) (stepL (stepM ⊥ s0) (stepL ⊥ 0 s0) s1)

/-- The row maximum as the reference takes it: the fold of `max` from -∞, joined with -∞ once more. -/
def softM (s : Fin 4096 → EReal) : EReal := max ⊥ (Finset.univ.fold max ⊥ s)
/-- The reference's unnormalized weight of key `m`. -/
def softE (s : Fin 4096 → EReal) (m : Fin 4096) : EReal := Ideal.exp (s m - softM s)
/-- The reference's row sum. -/
def softL (s : Fin 4096 → EReal) : EReal := 0 + ∑ m, softE s m
/-- Softmax weights contracted with one column of values. -/
def soft (s v : Fin 4096 → EReal) : EReal := ∑ m, Ideal.div (softE s m) (softL s) * v m

/-- Key `k` of the first tile, as a key of the whole row. -/
def lo (k : Fin 2048) : Fin 4096 := ⟨k.val, by have := k.isLt; omega⟩
/-- Key `k` of the second tile, as a key of the whole row. -/
def hi (k : Fin 2048) : Fin 4096 := ⟨2048 + k.val, by have := k.isLt; omega⟩

/-! ## The arrays -/

abbrev QKV : Shape := ⟨3, ![8, 4096, 128]⟩
abbrev WSh : Shape := ⟨2, ![512, 128]⟩
abbrev BSh : Shape := ⟨1, ![512]⟩
abbrev OSh : Shape := ⟨3, ![8, 4096, 512]⟩

/-- The scale both programs multiply the scores by: the f32 word 0x3DB504F3. -/
abbrev scale : EReal := Ideal.ofBits .f32 0x3DB504F3#32

/-- The score of query row `n` against key row `m` in batch `b`. -/
def score (Q K : QKV.Idx → EReal) (b : Fin 8) (n m : Fin 4096) : EReal :=
  (∑ d : Fin 128, Q (ix3 b n d) * K (ix3 b m d)) * scale

/-- Attention as the kernel accumulates it. -/
def flashAttn (Q K V : QKV.Idx → EReal) (b : Fin 8) (n : Fin 4096) (d : Fin 128) : EReal :=
  flash (fun k => score Q K b n (lo k)) (fun k => score Q K b n (hi k))
    (fun k => V (ix3 b (lo k) d)) (fun k => V (ix3 b (hi k) d))

/-- Attention as the reference computes it. -/
def softAttn (Q K V : QKV.Idx → EReal) (b : Fin 8) (n : Fin 4096) (d : Fin 128) : EReal :=
  soft (fun m => score Q K b n m) (fun m => V (ix3 b m d))

/-- The kernel's result array. -/
def outK (Q K V : QKV.Idx → EReal) (W : WSh.Idx → EReal) (B : BSh.Idx → EReal) : OSh.Idx → EReal :=
  fun j => (∑ d : Fin 128, flashAttn Q K V (j 0) (j 1) d * W (ix2 (j 2) d)) + B (ix1 (j 2))

/-- The reference's result array. -/
def outR (Q K V : QKV.Idx → EReal) (W : WSh.Idx → EReal) (B : BSh.Idx → EReal) : OSh.Idx → EReal :=
  fun j => (∑ d : Fin 128, softAttn Q K V (j 0) (j 1) d * W (ix2 (j 2) d)) + B (ix1 (j 2))

end Cert.Attn

end
-- ==== Proof.RefRead.lean ====
/-
  The reference program read index by index.

  Each stage of the reference (scores, row maximum, shifted exponentials, row sum, quotient, contraction with the
  values, the linear layer) is read at an index given by its coordinates, and identified with the matching piece
  of the specification: the scaled score, the row maximum `softM`, the weight `softE`, the row sum `softL`,
  the attention value `softAttn`, and finally the result array `outR`.
-/
import proofs.«415526_j88252987998888_3_alg».proof.Proof.Gen.ReferenceIdeal.Read
import proofs.«415526_j88252987998888_3_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Cert.Attn

/-- The f32 word of negative infinity denotes the bottom of the extended reals. -/
theorem ofBits_neg_inf : Ideal.ofBits .f32 0xFF800000#32 = ⊥ := by simp [Ideal.ofBits, Ideal.ieee]

/-! ## Index equations -/

theorem lidx_v0 (b : Fin 8) (n m : Fin 4096) (k : Fin 128) :
    lidx_main_v0 (ix3 b n m) k = ix3 b n k :=
  funext fun a => by match a with | ⟨0, _⟩ => rfl | ⟨1, _⟩ => rfl | ⟨2, _⟩ => rfl

theorem ridx_v0 (b : Fin 8) (n m : Fin 4096) (k : Fin 128) :
    ridx_main_v0 (ix3 b n m) k = ix3 b m k :=
  funext fun a => by match a with | ⟨0, _⟩ => rfl | ⟨1, _⟩ => rfl | ⟨2, _⟩ => rfl

/-! ## The scores -/

/-- The scaled product of queries and keys at `(b, n, m)` is the score. -/
theorem v2_at (x0 x1 : (⟨S8x4096x128, .f32⟩ : BufTy).Contents (Elt Ideal)) (b : Fin 8) (n m : Fin 4096) :
    val_main_v2 (F := Ideal) x0 x1 (ix3 b n m) = score x0 x1 b n m := by
  rw [val_main_v2_apply, val_main_v0_apply, val_main_v1_apply, val_main_cst_apply]
  simp only [Ideal.mulf_def, Ideal.ofBits_def, lidx_v0, ridx_v0]
  rfl

/-! ## The row maximum -/

/-- Dropping the key axis of the score array leaves the rows. -/
theorem reduces_keys : S8x4096x4096.Reduces [2] S8x4096 := by decide

/-- The maximum-reduction over the key axis at row `(b, n)`: the fold of `max` from negative infinity over the
    row's scores. -/
theorem v3_at (x0 x1 : (⟨S8x4096x128, .f32⟩ : BufTy).Contents (Elt Ideal)) (b : Fin 8) (n : Fin 4096) :
    val_main_v3 (F := Ideal) x0 x1 (ix2 b n)
      = (Finset.univ : Finset (Fin 4096)).fold max ⊥ (fun m => score x0 x1 b n m) := by
  unfold val_main_v3
  have h1 := Host.reduce_eq_fold_single (FloatOps.maximumf (F := Ideal) (φ := .f32)) (val_main_v2 (F := Ideal) x0 x1)
    (val_main_cst_0 (F := Ideal)) reducesTo_S8x4096x4096_S8x4096_d2 reduces_keys h_S_ (ix2 b n)
  rw [val_main_cst_0_apply, Ideal.ofBits_def, ofBits_neg_inf] at h1
  refine h1.trans ?_
  show (Finset.univ : Finset (Fin 4096)).fold max ⊥ _ = _
  refine Finset.fold_congr fun m _ => ?_
  rw [← v2_at]
  exact congrArg (val_main_v2 (F := Ideal) x0 x1)
    (funext fun a => Fin.ext (by match a with | ⟨0, _⟩ => rfl | ⟨1, _⟩ => rfl | ⟨2, _⟩ => rfl))

/-- The row maximum as the reference takes it. -/
theorem v5_at (x0 x1 : (⟨S8x4096x128, .f32⟩ : BufTy).Contents (Elt Ideal)) (b : Fin 8) (n : Fin 4096) :
    val_main_v5 (F := Ideal) x0 x1 (ix2 b n) = softM (fun m => score x0 x1 b n m) := by
  rw [val_main_v5_apply, val_main_v4_apply, val_main_cst_1_apply, v3_at, Ideal.ofBits_def, ofBits_neg_inf,
    Ideal.maximumf_def]
  rfl

theorem idx_v6_v7 (b : Fin 8) (n m : Fin 4096) : idx_main_v6 (idx_main_v7 (ix3 b n m)) = ix2 b n :=
  funext fun a => by match a with | ⟨0, _⟩ => rfl | ⟨1, _⟩ => rfl

/-- The row maximum broadcast back along the key axis. -/
theorem v7_at (x0 x1 : (⟨S8x4096x128, .f32⟩ : BufTy).Contents (Elt Ideal)) (b : Fin 8) (n m : Fin 4096) :
    val_main_v7 (F := Ideal) x0 x1 (ix3 b n m) = softM (fun m => score x0 x1 b n m) := by
  rw [val_main_v7_apply, val_main_v6_apply, idx_v6_v7, v5_at]

/-! ## The weights and their sum -/

/-- The exponential of the shifted score is the reference's unnormalized weight. -/
theorem v9_at (x0 x1 : (⟨S8x4096x128, .f32⟩ : BufTy).Contents (Elt Ideal)) (b : Fin 8) (n m : Fin 4096) :
    val_main_v9 (F := Ideal) x0 x1 (ix3 b n m) = softE (fun m => score x0 x1 b n m) m := by
  rw [val_main_v9_apply, val_main_v8_apply, v2_at, v7_at, Ideal.subf_def, Ideal.hostUnary_exp_def]
  rfl

theorem idx_v10 (b : Fin 8) (n m : Fin 4096) : idx_main_v10 (ix2 b n) m = ix3 b n m :=
  funext fun a => by match a with | ⟨0, _⟩ => rfl | ⟨1, _⟩ => rfl | ⟨2, _⟩ => rfl

/-- The row sum of the weights, from zero. -/
theorem v10_at (x0 x1 : (⟨S8x4096x128, .f32⟩ : BufTy).Contents (Elt Ideal)) (b : Fin 8) (n : Fin 4096) :
    val_main_v10 (F := Ideal) x0 x1 (ix2 b n) = softL (fun m => score x0 x1 b n m) := by
  rw [val_main_v10_apply, val_main_cst_2_apply, Ideal.ofBits_def, Ideal.ofBits_zero_f32]
  unfold softL
  refine congrArg (0 + ·) (Finset.sum_congr rfl fun m _ => ?_)
  rw [idx_v10, v9_at]

theorem idx_v11_v12 (b : Fin 8) (n m : Fin 4096) : idx_main_v11 (idx_main_v12 (ix3 b n m)) = ix2 b n :=
  funext fun a => by match a with | ⟨0, _⟩ => rfl | ⟨1, _⟩ => rfl

/-- The row sum broadcast back along the key axis. -/
theorem v12_at (x0 x1 : (⟨S8x4096x128, .f32⟩ : BufTy).Contents (Elt Ideal)) (b : Fin 8) (n m : Fin 4096) :
    val_main_v12 (F := Ideal) x0 x1 (ix3 b n m) = softL (fun m => score x0 x1 b n m) := by
  rw [val_main_v12_apply, val_main_v11_apply, idx_v11_v12, v10_at]

/-- The softmax weight of key `m` in row `(b, n)`. -/
theorem v13_at (x0 x1 : (⟨S8x4096x128, .f32⟩ : BufTy).Contents (Elt Ideal)) (b : Fin 8) (n m : Fin 4096) :
    val_main_v13 (F := Ideal) x0 x1 (ix3 b n m)
      = Ideal.div (softE (fun m => score x0 x1 b n m) m) (softL (fun m => score x0 x1 b n m)) := by
  rw [val_main_v13_apply, v9_at, v12_at, Ideal.hostDivf_def]

/-! ## Attention and the linear layer -/

theorem lidx_v14 (b : Fin 8) (n : Fin 4096) (d : Fin 128) (m : Fin 4096) :
    lidx_main_v14 (ix3 b n d) m = ix3 b n m :=
  funext fun a => by match a with | ⟨0, _⟩ => rfl | ⟨1, _⟩ => rfl | ⟨2, _⟩ => rfl

theorem ridx_v14 (b : Fin 8) (n : Fin 4096) (d : Fin 128) (m : Fin 4096) :
    ridx_main_v14 (ix3 b n d) m = ix3 b m d :=
  funext fun a => by match a with | ⟨0, _⟩ => rfl | ⟨1, _⟩ => rfl | ⟨2, _⟩ => rfl

/-- The weights contracted with the values: the reference's attention value. -/
theorem v14_at (x0 x1 x2 : (⟨S8x4096x128, .f32⟩ : BufTy).Contents (Elt Ideal)) (b : Fin 8) (n : Fin 4096) (d : Fin 128) :
    val_main_v14 (F := Ideal) x0 x1 x2 (ix3 b n d) = softAttn x0 x1 x2 b n d := by
  rw [val_main_v14_apply]
  unfold softAttn soft
  refine Finset.sum_congr rfl fun m _ => ?_
  rw [lidx_v14, ridx_v14, v13_at]

theorem lidx_v15 (b : Fin 8) (n : Fin 4096) (c : Fin 512) (d : Fin 128) : lidx_main_v15 (ix3 b n c) d = ix3 b n d :=
  funext fun a => by match a with | ⟨0, _⟩ => rfl | ⟨1, _⟩ => rfl | ⟨2, _⟩ => rfl

theorem ridx_v15 (b : Fin 8) (n : Fin 4096) (c : Fin 512) (d : Fin 128) : ridx_main_v15 (ix3 b n c) d = ix2 c d :=
  funext fun a => by match a with | ⟨0, _⟩ => rfl | ⟨1, _⟩ => rfl

theorem idx_v16_v17 (b : Fin 8) (n : Fin 4096) (c : Fin 512) : idx_main_v16 (idx_main_v17 (ix3 b n c)) = ix1 c :=
  funext fun a => by match a with | ⟨0, _⟩ => rfl

/-- The reference program's result is the specification's reference array. -/
theorem ref_eq (x0 x1 x2 : (⟨Cert.ReferenceIdeal.S8x4096x128, .f32⟩ : BufTy).Contents (Elt Ideal)) (x3 : (⟨Cert.ReferenceIdeal.S512x128, .f32⟩ : BufTy).Contents (Elt Ideal)) (x4 : (⟨Cert.ReferenceIdeal.S512, .f32⟩ : BufTy).Contents (Elt Ideal)) :
    Cert.ReferenceIdeal.Read.val_main_v18 (F := Ideal) x0 x1 x2 x3 x4 = Cert.Attn.outR x0 x1 x2 x3 x4 := by
  refine funext fun (j : S8x4096x512.Idx) => ?_
  obtain ⟨b, n, c, rfl⟩ : ∃ (b : Fin 8) (n : Fin 4096) (c : Fin 512), j = ix3 b n c := ⟨j 0, j 1, j 2, eq_ix3 j⟩
  rw [val_main_v18_apply, val_main_v15_apply, val_main_v17_apply, val_main_v16_apply, idx_v16_v17, Ideal.addf_def]
  show _ = (∑ d : Fin 128, softAttn x0 x1 x2 b n d * x3 (ix2 c d)) + x4 (ix1 c)
  refine congrArg (· + x4 (ix1 c)) (Finset.sum_congr rfl fun d _ => ?_)
  rw [lidx_v15, ridx_v15, v14_at]

end Cert.ReferenceIdeal.RefValue

end
-- ==== Proof.Finite.lean ====
/-
  From "every float input is finite" to "every entry of Q, K and V is a real".

  The precondition tests each array elementwise by |x| < +∞ and takes the conjunction over all entries,
  then the conjunction of the five arrays' answers. Over the extended reals |x| is max x (-x), which is +∞
  at both infinities; so an entry that passes the test is neither -∞ nor +∞, that is, it is the coercion
  of a real. The scale both programs multiply the scores by is a normal f32 number, hence a real as well.
-/
import proofs.«415526_j88252987998888_3_alg».proof.Pre_finite_inputs
import proofs.«415526_j88252987998888_3_alg».proof.Proof.Gen.Pre_finite_inputs
import proofs.«415526_j88252987998888_3_alg».proof.Proof.Spec
import Idealize.ShloMosaic.Lib.ReduceAll
import Idealize.ShloMosaic.PureOps.Ideal.Laws

open Idealize.ShloMosaic Idealize.ShloMosaic.ValueIdx

namespace Cert.Attn.Finite

/-- The f32 word 0x7F800000 denotes +∞. -/
theorem inf_bits : Ideal.ofBits .f32 0x7F800000#32 = ⊤ := by simp [Ideal.ofBits, Ideal.ieee]

/-- An extended real whose absolute value is strictly below +∞ is a real: at -∞ and at +∞ the
    absolute value max x (-x) is +∞ itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The shape of a scalar has one index. -/
instance : Subsingleton Cert.Pre_finite_inputs.S_.Idx := ⟨fun a b => funext fun d => d.elim0⟩

/-- One array's test, read at an entry: the comparison of |x i| with the broadcast +∞ literal being true
    makes x i a real. -/
theorem entry_real {s : Shape} (x : FVec Ideal s .f32)
    (hb : Cert.Pre_finite_inputs.S_.BroadcastsInDim s (![] : Fin 0 → Fin s.rank)) (i : s.Idx)
    (h : cmpf .olt (Host.absf x)
          (broadcastInDim s ![] hb (constant (F := Ideal) Cert.Pre_finite_inputs.S_ .f32 0x7F800000#32)) i = 1#1) :
    ∃ r : ℝ, x i = (r : EReal) := by
  refine real_of_abs_lt_top (x i) ?_
  have e : Ideal.cmp .olt (max (x i) (-(x i))) (Ideal.ofBits .f32 0x7F800000#32) = 1#1 := h
  rwa [inf_bits] at e

theorem real_of_pre [Cert.Pre_finite_inputs.Facts]
    (x0 x1 x2 : FVec Ideal Cert.Pre_finite_inputs.S8x4096x128 .f32) (x3 : FVec Ideal Cert.Pre_finite_inputs.S512x128 .f32) (x4 : FVec Ideal Cert.Pre_finite_inputs.S512 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  unfold Cert.Pre_finite_inputs.fn Cert.Pre_finite_inputs.fn_part1 at h0
  dsimp only at h0
  -- the outermost conjunction is ((((Q ∧ K) ∧ V) ∧ W) ∧ bias): peel it from the outside
  obtain ⟨h0123, _⟩ := IntOp.andi_eq_one.1 h0
  obtain ⟨h012, _⟩ := IntOp.andi_eq_one.1 h0123
  obtain ⟨h01, hV⟩ := IntOp.andi_eq_one.1 h012
  obtain ⟨hQ, hK⟩ := IntOp.andi_eq_one.1 h01
  exact ⟨fun i => entry_real x0 _ i (Host.reduce_andi_all _ _ _ _ _ hQ i),
    fun i => entry_real x1 _ i (Host.reduce_andi_all _ _ _ _ _ hK i),
    fun i => entry_real x2 _ i (Host.reduce_andi_all _ _ _ _ _ hV i)⟩

/-- The scale is a real: the word 0x3DB504F3 has a biased exponent of 123, neither 0 nor 255, so it denotes
    a normal number, the coercion of a real. -/
theorem scale_real : ∃ r : ℝ, Cert.Attn.scale = (r : EReal) := by
  unfold Cert.Attn.scale
  simp only [Ideal.ofBits, Ideal.ieee]
  rw [if_neg (by decide), if_neg (by decide)]
  exact ⟨_, rfl⟩

end Cert.Attn.Finite
-- ==== Proof.Law.lean ====
/-
  The online-softmax recurrence over two tiles of 2048 keys and the one-pass softmax give the same weighted
  average of a column of values, when every score and every value is a real number.

  Every maximum that occurs (of the first tile, of the first tile joined with the second, of the whole row) is a
  real number, because it is the largest of finitely many reals, at least one. Writing μ₁, μ₂, μ for the three,
  the recurrence computes

      ( e^{μ₁-μ₂} · Σ_lo e^{σ-μ₁} ν + Σ_hi e^{σ-μ₂} ν ) / ( e^{μ₁-μ₂} · Σ_lo e^{σ-μ₁} + Σ_hi e^{σ-μ₂} )

  (the terms carried from the reset state vanish: e^{-∞} = 0), and the one-pass softmax computes
  Σ_m ( e^{σ-μ} / Σ e^{σ-μ} ) ν. Both are (Σ e^σ ν) / (Σ e^σ): a common factor e^{-c} cancels from numerator and
  denominator, whatever the shift c, and the row of 4096 keys is the first tile followed by the second.
-/
import proofs.«415526_j88252987998888_3_alg».proof.Proof.Spec
import Idealize.ShloMosaic.PureOps.Ideal
import Mathlib.Analysis.SpecialFunctions.Exp
import Mathlib.Algebra.BigOperators.Fin
import Mathlib.Data.Finset.Lattice.Fold
import Mathlib.Data.EReal.Operations
import Mathlib.Data.EReal.Inv

noncomputable section

open Idealize.ShloMosaic

namespace Cert.Attn

/-! ## Finite sums and maxima of coerced reals -/

/-- The coercion of reals into the extended reals commutes with finite sums. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The largest of finitely many reals, at least one, taken in the extended reals from -∞, is one of them. -/
theorem fold_max_coe {N : ℕ} [NeZero N] (s : Fin N → ℝ) :
    ∃ μ : ℝ, Finset.univ.fold max ⊥ (fun k => ((s k : ℝ) : EReal)) = (μ : EReal) := by
  obtain ⟨i, -, hi⟩ := Finset.exists_mem_eq_sup (Finset.univ : Finset (Fin N)) Finset.univ_nonempty
    (fun k => ((s k : ℝ) : EReal))
  exact ⟨s i, hi⟩

/-- The row of 4096 keys is the first tile followed by the second. -/
theorem sum_split (f : Fin 4096 → ℝ) : ∑ m, f m = ∑ k, f (lo k) + ∑ k, f (hi k) := by
  have h := Fin.sum_univ_add (a := 2048) (b := 2048) f
  exact h

/-! ## The shift cancels -/

/-- A shift of every exponent by c is a common factor e^{-c} of the weighted sum. -/
theorem sum_exp_sub_mul {ι : Type*} (t : Finset ι) (c : ℝ) (s v : ι → ℝ) :
    ∑ i ∈ t, Real.exp (s i - c) * v i = Real.exp (-c) * ∑ i ∈ t, Real.exp (s i) * v i := by
  rw [Finset.mul_sum]
  refine Finset.sum_congr rfl (fun i _ => ?_)
  rw [sub_eq_add_neg, Real.exp_add]; ring

/-- A shift of every exponent by c is a common factor e^{-c} of the sum of weights. -/
theorem sum_exp_sub {ι : Type*} (t : Finset ι) (c : ℝ) (s : ι → ℝ) :
    ∑ i ∈ t, Real.exp (s i - c) = Real.exp (-c) * ∑ i ∈ t, Real.exp (s i) := by
  rw [Finset.mul_sum]
  refine Finset.sum_congr rfl (fun i _ => ?_)
  rw [sub_eq_add_neg, Real.exp_add]; ring

/-! ## The two programs on reals -/

/-- The recurrence on real scores and values, given that the two running maxima are the reals μ₁ and μ₂:
    the quotient of the unshifted sums over both tiles. -/
theorem flash_of_max (s0 s1 v0 v1 : Fin 2048 → ℝ) (μ₁ μ₂ : ℝ)
    (h1 : stepM ⊥ (fun k => ((s0 k : ℝ) : EReal)) = (μ₁ : EReal))
    (h2 : stepM (μ₁ : EReal) (fun k => ((s1 k : ℝ) : EReal)) = (μ₂ : EReal)) :
    flash (fun k => ((s0 k : ℝ) : EReal)) (fun k => ((s1 k : ℝ) : EReal))
        (fun k => ((v0 k : ℝ) : EReal)) (fun k => ((v1 k : ℝ) : EReal))
      = (((∑ k, Real.exp (s0 k) * v0 k + ∑ k, Real.exp (s1 k) * v1 k)
          / (∑ k, Real.exp (s0 k) + ∑ k, Real.exp (s1 k)) : ℝ) : EReal) := by
  have hD0 : 0 < ∑ k : Fin 2048, Real.exp (s0 k) :=
    Finset.sum_pos (fun k _ => Real.exp_pos _) Finset.univ_nonempty
  have hD1 : 0 < ∑ k : Fin 2048, Real.exp (s1 k) :=
    Finset.sum_pos (fun k _ => Real.exp_pos _) Finset.univ_nonempty
  have he : Real.exp (μ₁ - μ₂) * Real.exp (-μ₁) = Real.exp (-μ₂) := by
    rw [← Real.exp_add, show μ₁ - μ₂ + -μ₁ = -μ₂ by ring]
  have hden : Real.exp (μ₁ - μ₂) * (∑ k, Real.exp (s0 k - μ₁)) + ∑ k, Real.exp (s1 k - μ₂)
      = Real.exp (-μ₂) * (∑ k, Real.exp (s0 k) + ∑ k, Real.exp (s1 k)) := by
    rw [sum_exp_sub, sum_exp_sub, ← mul_assoc, he]; ring
  have hnum : Real.exp (μ₁ - μ₂) * (∑ k, Real.exp (s0 k - μ₁) * v0 k) + ∑ k, Real.exp (s1 k - μ₂) * v1 k
      = Real.exp (-μ₂) * (∑ k, Real.exp (s0 k) * v0 k + ∑ k, Real.exp (s1 k) * v1 k) := by
    rw [sum_exp_sub_mul, sum_exp_sub_mul, ← mul_assoc, he]; ring
  have hne : Real.exp (μ₁ - μ₂) * (∑ k, Real.exp (s0 k - μ₁)) + ∑ k, Real.exp (s1 k - μ₂) ≠ 0 := by
    rw [hden]; exact mul_ne_zero (Real.exp_pos _).ne' (add_pos hD0 hD1).ne'
  simp only [flash, stepAcc, stepL, stepA, stepP, h1, h2, mul_zero, zero_add, ← EReal.coe_sub,
    Ideal.exp_coe, ← EReal.coe_mul, coe_sum, ← EReal.coe_add]
  rw [Ideal.div_coe hne, ← EReal.coe_mul, EReal.coe_eq_coe_iff, hnum, hden]
  have := (Real.exp_pos (-μ₂)).ne'
  have := (add_pos hD0 hD1).ne'
  field_simp

/-- The one-pass softmax on real scores and values, given that the row maximum is the real μ: the quotient
    of the unshifted sums over the row. -/
theorem soft_of_max (s v : Fin 4096 → ℝ) (μ : ℝ)
    (h : softM (fun m => ((s m : ℝ) : EReal)) = (μ : EReal)) :
    soft (fun m => ((s m : ℝ) : EReal)) (fun m => ((v m : ℝ) : EReal))
      = (((∑ m, Real.exp (s m) * v m) / (∑ m, Real.exp (s m)) : ℝ) : EReal) := by
  have hD : 0 < ∑ m : Fin 4096, Real.exp (s m) :=
    Finset.sum_pos (fun m _ => Real.exp_pos _) Finset.univ_nonempty
  have hne : ∑ m, Real.exp (s m - μ) ≠ 0 := by
    rw [sum_exp_sub]; exact mul_ne_zero (Real.exp_pos _).ne' hD.ne'
  simp only [soft, softL, softE, h, zero_add, ← EReal.coe_sub, Ideal.exp_coe, coe_sum,
    Ideal.div_coe hne, ← EReal.coe_mul]
  rw [EReal.coe_eq_coe_iff]
  have hsum : ∑ m, Real.exp (s m - μ) * (1 / ∑ m, Real.exp (s m - μ)) * v m
      = (∑ m, Real.exp (s m - μ) * v m) * (1 / ∑ m, Real.exp (s m - μ)) := by
    rw [Finset.sum_mul]
    exact Finset.sum_congr rfl (fun m _ => by ring)
  rw [hsum, sum_exp_sub_mul, sum_exp_sub]
  have := (Real.exp_pos (-μ)).ne'
  have := hD.ne'
  field_simp

/-! ## The equivalence -/

/-- On real scores σ and real values ν, the recurrence over the two tiles equals the one-pass softmax average. -/
theorem flash_eq_soft (σ ν : Fin 4096 → ℝ) :
    flash (fun k => ((σ (lo k) : ℝ) : EReal)) (fun k => ((σ (hi k) : ℝ) : EReal))
        (fun k => ((ν (lo k) : ℝ) : EReal)) (fun k => ((ν (hi k) : ℝ) : EReal))
      = soft (fun m => ((σ m : ℝ) : EReal)) (fun m => ((ν m : ℝ) : EReal)) := by
  -- the maximum of the first tile is a real
  obtain ⟨μ₁, hμ₁⟩ := fold_max_coe (fun k : Fin 2048 => σ (lo k))
  have h1 : stepM ⊥ (fun k => ((σ (lo k) : ℝ) : EReal)) = (μ₁ : EReal) := by
    rw [stepM, hμ₁]; exact max_eq_right bot_le
  -- joined with the maximum of the second tile it is a real
  obtain ⟨μ', hμ'⟩ := fold_max_coe (fun k : Fin 2048 => σ (hi k))
  have h2 : stepM (μ₁ : EReal) (fun k => ((σ (hi k) : ℝ) : EReal)) = ((max μ₁ μ' : ℝ) : EReal) := by
    rw [stepM, hμ']
    rcases le_total μ₁ μ' with hle | hle
    · rw [max_eq_right hle, max_eq_right (EReal.coe_le_coe_iff.2 hle)]
    · rw [max_eq_left hle, max_eq_left (EReal.coe_le_coe_iff.2 hle)]
  -- the maximum of the whole row is a real
  obtain ⟨μ, hμ⟩ := fold_max_coe σ
  have h3 : softM (fun m => ((σ m : ℝ) : EReal)) = (μ : EReal) := by
    rw [softM, hμ]; exact max_eq_right bot_le
  rw [flash_of_max (fun k => σ (lo k)) (fun k => σ (hi k)) (fun k => ν (lo k)) (fun k => ν (hi k)) μ₁ _ h1 h2,
    soft_of_max σ ν μ h3, sum_split (fun m => Real.exp (σ m) * ν m), sum_split (fun m => Real.exp (σ m))]

end Cert.Attn

end
-- ==== Proof.Bridge.lean ====
/-
  The two result arrays agree when every entry of Q, K and V, and the scale, is a real number.

  Each score (Σ_d Q[b,n,d] · K[b,m,d]) · c is then a real number, so a row of scores is a row of reals and a
  column of V is a column of reals; on such rows the recurrence over two tiles and the one-pass softmax give the
  same weighted average. The linear layer that follows is the same expression of that average on both sides.
-/
import proofs.«415526_j88252987998888_3_alg».proof.Proof.Spec
import proofs.«415526_j88252987998888_3_alg».proof.Proof.Law

noncomputable section

open Idealize.ShloMosaic Idealize.ShloMosaic.ValueIdx

namespace Cert.Attn

/-- A score of real arrays under a real scale is the coercion of the real score. -/
theorem score_coe (Q K : QKV.Idx → EReal) (q k : QKV.Idx → ℝ) (c : ℝ)
    (hq : ∀ i, Q i = ((q i : ℝ) : EReal)) (hk : ∀ i, K i = ((k i : ℝ) : EReal))
    (hc : scale = ((c : ℝ) : EReal)) (b : Fin 8) (n m : Fin 4096) :
    score Q K b n m = (((∑ d : Fin 128, q (ix3 b n d) * k (ix3 b m d)) * c : ℝ) : EReal) := by
  unfold score
  rw [hc]
  simp only [hq, hk, ← EReal.coe_mul, coe_sum]

/-- With real Q, K, V and a real scale, attention accumulated over two tiles is attention by one-pass softmax,
    at every batch, query row and value column. -/
theorem flashAttn_eq_softAttn (Q K V : QKV.Idx → EReal) (q k v : QKV.Idx → ℝ) (c : ℝ)
    (hq : ∀ i, Q i = ((q i : ℝ) : EReal)) (hk : ∀ i, K i = ((k i : ℝ) : EReal))
    (hv : ∀ i, V i = ((v i : ℝ) : EReal)) (hc : scale = ((c : ℝ) : EReal))
    (b : Fin 8) (n : Fin 4096) (d : Fin 128) :
    flashAttn Q K V b n d = softAttn Q K V b n d := by
  unfold flashAttn softAttn
  simp only [score_coe Q K q k c hq hk hc, hv]
  exact flash_eq_soft (fun m => (∑ d : Fin 128, q (ix3 b n d) * k (ix3 b m d)) * c) (fun m => v (ix3 b m d))

/-- With real Q, K, V and a real scale, the kernel's result array is the reference's. -/
theorem outK_eq_outR (Q K V : QKV.Idx → EReal) (W : WSh.Idx → EReal) (B : BSh.Idx → EReal)
    (hQ : ∀ i, ∃ r : ℝ, Q i = (r : EReal)) (hK : ∀ i, ∃ r : ℝ, K i = (r : EReal)) (hV : ∀ i, ∃ r : ℝ, V i = (r : EReal))
    (hc : ∃ r : ℝ, scale = (r : EReal)) : outK Q K V W B = outR Q K V W B := by
  choose q hq using hQ
  choose k hk using hK
  choose v hv using hV
  obtain ⟨c, hc⟩ := hc
  funext j
  unfold outK outR
  exact congrArg (· + B (ix1 (j 2))) (Finset.sum_congr rfl fun d _ =>
    congrArg (· * W (ix2 (j 2) d)) (flashAttn_eq_softAttn Q K V q k v c hq hk hv hc (j 0) (j 1) d))

end Cert.Attn

end
-- ==== Proof.Pieces.lean ====
/-
  What one grid point of the attention kernel leaves behind, as pure functions of what it loads.

  The grid is (batch, query tile, key tile) with two key tiles per query tile. A point with key tile 0 resets the
  running row maximum, the running row sum and the running numerator, and then makes one online-softmax step over
  keys 0..2047; the point with key tile 1 makes the second step over keys 2048..4095 on top of what the first left, and
  then divides the numerator by the row sum, multiplies by the transposed weight and adds the bias.
  Each lemma below says that what a point's stores leave in a buffer is the corresponding arithmetic term of the
  blocks it loaded: the key and value tiles are the rows `2048 * (key tile)` onwards of the resident per-batch blocks.
-/
import proofs.«415526_j88252987998888_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The 2048 rows of a resident [1, 4096, 128] block that the point's key tile selects: rows `2048 * (key tile)` onwards. -/
def tile (i : grid0.Coords) (x : Vec F S1x4096x128 .bf16) : Vec F S1x2048x128 .bf16 :=
  View.ld x (Rect.unit (k0_off1 i) S1x2048x128.size (k0_off1_inb i))

/-- The running row maximum after the first step (from the reset value -∞). -/
def mA (i : grid0.Coords) (q : Vec F S1x1024x128 .bf16) (k : Vec F S1x4096x128 .bf16) : Vec F S1024x1 .f32 :=
  k0_pay2 (k0_pay9 (tile i k) q k0_pay4)

/-- The running row sum after the first step (from the reset value 0). -/
def lA (i : grid0.Coords) (q : Vec F S1x1024x128 .bf16) (k : Vec F S1x4096x128 .bf16) : Vec F S1024x1 .f32 :=
  k0_pay13 (tile i k) q k0_pay4 k0_pay5

/-- The running numerator after the first step (from the reset value 0). -/
def accA (i : grid0.Coords) (q : Vec F S1x1024x128 .bf16) (k v : Vec F S1x4096x128 .bf16) : Vec F S1024x128 .f32 :=
  k0_pay1 (k0_pay7 (tile i v)) (k0_pay10 (tile i k) q k0_pay4) (k0_pay12 (tile i k) q k0_pay4) k0_pay6

/-- The output block the second step stores: the second online-softmax step over what the first left
    (`m`, `l`, `acc`), the quotient, the product with the transposed weight, the bias. -/
def outB (i : grid0.Coords) (q : Vec F S1x1024x128 .bf16) (k v : Vec F S1x4096x128 .bf16) (w : Vec F S128x512 .bf16)
    (b : Vec F S512 .f32) (m l : Vec F S1024x1 .f32) (acc : Vec F S1024x128 .f32) : Vec F S1x1024x512 .f32 :=
  k0_pay3 (k0_pay1 (k0_pay7 (tile i v)) (k0_pay10 (tile i k) q m) (k0_pay12 (tile i k) q m) acc)
    (k0_pay13 (tile i k) q m l) w b

theorem sout_A_0 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S128x512 .bf16) (harg6 : arg6.IsWhole) (arg7 : Memref sig .tc .vmem S512 .f32) (harg7 : arg7.IsWhole) (arg8 : Memref sig .tc .vmem S1x1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : ¬cond0_1 i) (x0 : Vec F S1x1024x128 .bf16) (x1 : Vec F S1x4096x128 .bf16) (x2 : Vec F S1x4096x128 .bf16) (x3 : Vec F S128x512 .bf16) (x4 : Vec F S512 .f32) :
    sout0_A_0 c i arg3 harg3 arg4 harg4 arg5 harg5 arg6 harg6 arg7 harg7 arg8 harg8 arg9 harg9 arg10 harg10 arg11 harg11 hc0 hc1 x0 x1 x2 x3 x4 = mA i x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2]
  simp only [View.readAt_eq_ld, harg3.read_unread, harg4.read_unread, View.ld_unit_zero (S := S1x1024x128) hz3,
    View.readCov_unit_zero (S := S1024x1) _ hz2]
  rfl

theorem sout_A_1 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S128x512 .bf16) (harg6 : arg6.IsWhole) (arg7 : Memref sig .tc .vmem S512 .f32) (harg7 : arg7.IsWhole) (arg8 : Memref sig .tc .vmem S1x1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : ¬cond0_1 i) (x0 : Vec F S1x1024x128 .bf16) (x1 : Vec F S1x4096x128 .bf16) (x2 : Vec F S1x4096x128 .bf16) (x3 : Vec F S128x512 .bf16) (x4 : Vec F S512 .f32) :
    sout0_A_1 c i arg3 harg3 arg4 harg4 arg5 harg5 arg6 harg6 arg7 harg7 arg8 harg8 arg9 harg9 arg10 harg10 arg11 harg11 hc0 hc1 x0 x1 x2 x3 x4 = lA i x0 x1 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz2]
  simp only [View.readAt_eq_ld, harg3.read_unread, harg4.read_unread, View.ld_unit_zero (S := S1x1024x128) hz3,
    View.readCov_unit_zero (S := S1024x1) _ hz2]
  rfl

theorem sout_A_2 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S128x512 .bf16) (harg6 : arg6.IsWhole) (arg7 : Memref sig .tc .vmem S512 .f32) (harg7 : arg7.IsWhole) (arg8 : Memref sig .tc .vmem S1x1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : ¬cond0_1 i) (x0 : Vec F S1x1024x128 .bf16) (x1 : Vec F S1x4096x128 .bf16) (x2 : Vec F S1x4096x128 .bf16) (x3 : Vec F S128x512 .bf16) (x4 : Vec F S512 .f32) :
    sout0_A_2 c i arg3 harg3 arg4 harg4 arg5 harg5 arg6 harg6 arg7 harg7 arg8 harg8 arg9 harg9 arg10 harg10 arg11 harg11 hc0 hc1 x0 x1 x2 x3 x4 = accA i x0 x1 x2 := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x128) hz2]
  simp only [View.readAt_eq_ld, harg3.read_unread, harg4.read_unread, harg5.read_unread, View.ld_unit_zero (S := S1x1024x128) hz3,
    View.readCov_unit_zero (S := S1024x1) _ hz2, View.readCov_unit_zero (S := S1024x128) _ hz2]
  rfl

theorem out_B_5 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S128x512 .bf16) (harg6 : arg6.IsWhole) (arg7 : Memref sig .tc .vmem S512 .f32) (harg7 : arg7.IsWhole) (arg8 : Memref sig .tc .vmem S1x1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (x0 : Vec F S1x1024x128 .bf16) (x1 : Vec F S1x4096x128 .bf16) (x2 : Vec F S1x4096x128 .bf16) (x3 : Vec F S128x512 .bf16) (x4 : Vec F S512 .f32) (xs0 : Vec F S1024x1 .f32) (xs1 : Vec F S1024x1 .f32) (xs2 : Vec F S1024x128 .f32) :
    out0_B_5 c i arg3 harg3 arg4 harg4 arg5 harg5 arg6 harg6 arg7 harg7 arg8 harg8 arg9 harg9 arg10 harg10 arg11 harg11 hc0 hc1 x0 x1 x2 x3 x4 xs0 xs1 xs2 = outB i x0 x1 x2 x3 x4 xs0 xs1 xs2 := by
  unfold out0_B_5
  rw [View.read_writes_eq_canon _ _ _ (cover0_B_5 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero (S := S1x1024x512) hz3]
  simp only [View.readAt_eq_ld, harg3.read_unread, harg4.read_unread, harg5.read_unread, harg6.read_unread, harg7.read_unread,
    harg9.read_unread, harg10.read_unread, harg11.read_unread,
    View.ld_unit_zero (S := S1x1024x128) hz3, View.ld_unit_zero (S := S1024x1) hz2, View.ld_unit_zero (S := S1024x128) hz2,
    View.ld_unit_zero (S := S128x512) hz2, View.ld_unit_zero (S := S512) hz1,
    View.readCov_unit_zero (S := S1024x1) _ hz2, View.readCov_unit_zero (S := S1024x128) _ hz2]
  rfl

end Cert.KernelIdeal.Attn

end
-- ==== Proof.KernelRead.lean ====
/-
  The arithmetic of one grid point, read entry by entry over the extended reals.

  A row `r` of the query block against the 2048 keys of a tile gives a row of scores; the point's running maximum,
  rescaling factor, weights, running sum and running numerator at row `r` are the online-softmax step of the
  specification applied to that row of scores and to what the point before left at row `r`. The three matrix products are plain sums over the
  contracted coordinate, the reductions along a row are a fold of `max` and a sum, and the casts between [1, a, b] and
  [a, b] and the transposes only rename coordinates.
-/
import proofs.«415526_j88252987998888_3_alg».proof.Proof.Pieces
import proofs.«415526_j88252987998888_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Attn

open Cert.KernelIdeal Cert.KernelIdeal.Gen Cert.Attn

/-! ## The three products -/

theorem lhs_qk_0 (i : S1024x2048.Idx) (q : dot_S1024x128_S128x2048_S1024x2048_1_0_0_1_n_n.contr.Idx) : (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem lhs_qk_1 (i : S1024x2048.Idx) (q : dot_S1024x128_S128x2048_S1024x2048_1_0_0_1_n_n.contr.Idx) : (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhs_qk_0 (i : S1024x2048.Idx) (q : dot_S1024x128_S128x2048_S1024x2048_1_0_0_1_n_n.contr.Idx) : (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhs_qk_1 (i : S1024x2048.Idx) (q : dot_S1024x128_S128x2048_S1024x2048_1_0_0_1_n_n.contr.Idx) : (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- A plain [1024, 128] × [128, 2048] product into a zero accumulator, read at (p, c): the sum over the contracted coordinate. -/
theorem matmul_qk (lhs : FVec Ideal S1024x128 .bf16) (rhs : FVec Ideal S128x2048 .bf16) (p : Fin 1024) (c : Fin 2048) :
    matmul dot_S1024x128_S128x2048_S1024x2048_1_0_0_1_n_n none lhs rhs (constant S1024x2048 .f32 0x00000000#32) (ix2 p c) = ∑ k : Fin 128, lhs (ix2 p k) * rhs (ix2 k c) := by
  simp only [matmul]
  rw [Ideal.matmul_constant_zero_apply, ← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 p c) ((ValueIdx.contrEquiv1 dot_S1024x128_S128x2048_S1024x2048_1_0_0_1_n_n 128 rfl rfl).symm k) = ix2 p k := funext fun a => Fin.ext (by
    match a with
    | ⟨0, _⟩ => exact lhs_qk_0 _ _
    | ⟨1, _⟩ => exact (lhs_qk_1 _ _).trans hk)
  have er : dot_S1024x128_S128x2048_S1024x2048_1_0_0_1_n_n.rhsIdx (ix2 p c) ((ValueIdx.contrEquiv1 dot_S1024x128_S128x2048_S1024x2048_1_0_0_1_n_n 128 rfl rfl).symm k) = ix2 k c := funext fun a => Fin.ext (by
    match a with
    | ⟨0, _⟩ => exact (rhs_qk_0 _ _).trans hk
    | ⟨1, _⟩ => exact rhs_qk_1 _ _)
  rw [el, er]

theorem lhs_pv_0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_pv_1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_pv_0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_pv_1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A plain [1024, 2048] × [2048, 128] product into a zero accumulator, read at (p, c): the sum over the contracted coordinate. -/
theorem matmul_pv (lhs : FVec Ideal S1024x2048 .bf16) (rhs : FVec Ideal S2048x128 .bf16) (p : Fin 1024) (c : Fin 128) :
    matmul dot_S1024x2048_S2048x128_S1024x128_1_0_0_1_n_n none lhs rhs (constant S1024x128 .f32 0x00000000#32) (ix2 p c) = ∑ k : Fin 2048, lhs (ix2 p k) * rhs (ix2 k c) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 p c) ((ValueIdx.contrEquiv1 dot_S1024x2048_S2048x128_S1024x128_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S1024x2048_S2048x128_S1024x128_1_0_0_1_n_n.rhsIdx (ix2 p c) ((ValueIdx.contrEquiv1 dot_S1024x2048_S2048x128_S1024x128_1_0_0_1_n_n 2048 rfl rfl).symm k) = ix2 k c := funext fun a => Fin.ext (by
    match a with
    | ⟨0, _⟩ => exact (rhs_pv_0 _ _).trans hk
    | ⟨1, _⟩ => exact rhs_pv_1 _ _)
  rw [el, er]

theorem lhs_ow_0 (i : S1024x512.Idx) (q : dot_S1024x128_S128x512_S1024x512_1_0_0_1_n_n.contr.Idx) : (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_ow_1 (i : S1024x512.Idx) (q : dot_S1024x128_S128x512_S1024x512_1_0_0_1_n_n.contr.Idx) : (dot_S1024x128_S128x512_S1024x512_1_0_0_1_n_n.lhsIdx i q 1).val = (q ⟨0, by decide⟩).val :=
  dot_S1024x128_S128x512_S1024x512_1_0_0_1_n_n.lhsIdx_val_of_single rfl i q
theorem rhs_ow_0 (i : S1024x512.Idx) (q : dot_S1024x128_S128x512_S1024x512_1_0_0_1_n_n.contr.Idx) : (dot_S1024x128_S128x512_S1024x512_1_0_0_1_n_n.rhsIdx i q 0).val = (q ⟨0, by decide⟩).val :=
  dot_S1024x128_S128x512_S1024x512_1_0_0_1_n_n.rhsIdx_val_of_single rfl i q
theorem rhs_ow_1 (i : S1024x512.Idx) (q : dot_S1024x128_S128x512_S1024x512_1_0_0_1_n_n.contr.Idx) : (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- A plain [1024, 128] × [128, 512] product into a zero accumulator, read at (p, c): the sum over the contracted coordinate. -/
theorem matmul_ow (lhs : FVec Ideal S1024x128 .bf16) (rhs : FVec Ideal S128x512 .bf16) (p : Fin 1024) (c : Fin 512) :
    matmul dot_S1024x128_S128x512_S1024x512_1_0_0_1_n_n none lhs rhs (constant S1024x512 .f32 0x00000000#32) (ix2 p c) = ∑ k : Fin 128, lhs (ix2 p k) * rhs (ix2 k c) := by
  simp only [matmul]
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 p c) ((ValueIdx.contrEquiv1 dot_S1024x128_S128x512_S1024x512_1_0_0_1_n_n 128 rfl rfl).symm k) = ix2 p k := funext fun a => Fin.ext (by
    match a with
    | ⟨0, _⟩ => exact lhs_ow_0 _ _
    | ⟨1, _⟩ => exact (lhs_ow_1 _ _).trans hk)
  have er : dot_S1024x128_S128x512_S1024x512_1_0_0_1_n_n.rhsIdx (ix2 p c) ((ValueIdx.contrEquiv1 dot_S1024x128_S128x512_S1024x512_1_0_0_1_n_n 128 rfl rfl).symm k) = ix2 k c := funext fun a => Fin.ext (by
    match a with
    | ⟨0, _⟩ => exact (rhs_ow_0 _ _).trans hk
    | ⟨1, _⟩ => exact rhs_ow_1 _ _)
  rw [el, er]

theorem ofBits_neg_inf : Ideal.ofBits .f32 0xFF800000#32 = ⊥ := by simp [Ideal.ofBits, Ideal.ieee]

def srow (q : Vec Ideal S1x1024x128 .bf16) (kt : Vec Ideal S1x2048x128 .bf16) (r : Fin 1024) : Fin 2048 → EReal :=
  fun k => (∑ d : Fin 128, q (ix3 (0 : Fin 1) r d) * kt (ix3 (0 : Fin 1) k d)) * scale

theorem pay8_apply (q : Vec Ideal S1x1024x128 .bf16) (kt : Vec Ideal S1x2048x128 .bf16) (r : Fin 1024) (k : Fin 2048) :
    k0_pay8 (F := Ideal) kt q (ix2 r k) = srow q kt r k := by
  unfold k0_pay8 srow
  refine (congrArg (· * scale) ((matmul_qk _ _ r k).trans (Finset.sum_congr rfl fun d _ => ?_)))
  rw [shapeCast_1ab_ab_apply, transpose_ix2_apply, shapeCast_1ab_ab_apply]

/-- The lift of a row index of a [1024] vector to the [1024, 2048] matrix along its columns. -/
theorem lift_row (h : S1024x2048.Reduces [1] S1024) (r : Fin 1024) (k : Fin 2048) :
    h.lift (ix1 r) k = ix2 r k :=
  funext fun a => Fin.ext (by match a with | ⟨0, _⟩ => rfl | ⟨1, _⟩ => rfl)

/-- A [1024] vector viewed as a [1024, 1] column reads, at (r, 0), the vector at r. -/
theorem col_apply (x : FVec Ideal S1024 .f32) (r : Fin 1024) :
    shapeCast S1024x1 x shapeCasts_S1024_S1024x1 (ix2 r (0 : Fin 1)) = x (ix1 r) :=
  shapeCast_apply x _ (ix2 r (0 : Fin 1)) (ix1 r) (by
    rw [Shape.rowMajor_val_one, Shape.rowMajor_val_two]; show r.val = r.val * 1 + 0; omega)

/-- The maximum along a row, from -∞: the fold of `max` over the row's entries. -/
theorem rowmax_apply (X : FVec Ideal S1024x2048 .f32) (r : Fin 1024) :
    shapeCast S1024x1 (multiReduction (F := Ideal) .maximumf [1] S1024 X 0xFF800000#32 reduces_S1024x2048_S1024 (.inl rfl) rfl)
        shapeCasts_S1024_S1024x1 (ix2 r (0 : Fin 1))
      = Finset.univ.fold max ⊥ (fun k : Fin 2048 => X (ix2 r k)) := by
  rw [col_apply]
  refine (Ideal.multiReduction_maximumf_single X 0xFF800000#32 reduces_S1024x2048_S1024 (.inl rfl) rfl (ix1 r)).trans ?_
  show Finset.univ.fold max (Ideal.ofBits .f32 0xFF800000#32) _ = _
  rw [ofBits_neg_inf]
  exact congrArg (Finset.univ.fold max ⊥) (funext fun k => congrArg X (lift_row _ r k))

/-- The sum along a row. -/
theorem rowsum_apply (X : FVec Ideal S1024x2048 .f32) (r : Fin 1024) :
    shapeCast S1024x1 (multiReduction (F := Ideal) .add [1] S1024 X 0x00000000#32 reduces_S1024x2048_S1024 (.inl rfl) rfl)
        shapeCasts_S1024_S1024x1 (ix2 r (0 : Fin 1))
      = ∑ k : Fin 2048, X (ix2 r k) := by
  rw [col_apply]
  refine (Ideal.multiReduction_add_single X 0x00000000#32 reduces_S1024x2048_S1024 (.inl rfl) rfl (ix1 r)).trans ?_
  exact Finset.sum_congr rfl fun k _ => congrArg X (lift_row _ r k)

/-! ## The online-softmax step at a row -/

section Step
variable (q : Vec Ideal S1x1024x128 .bf16) (kt : Vec Ideal S1x2048x128 .bf16) (mprev lprev : Vec Ideal S1024x1 .f32) (r : Fin 1024)

theorem pay9_apply : k0_pay9 (F := Ideal) kt q mprev (ix2 r (0 : Fin 1)) = stepM (mprev (ix2 r (0 : Fin 1))) (srow q kt r) := by
  unfold k0_pay9 stepM
  exact congrArg (max _) ((rowmax_apply _ r).trans (congrArg (Finset.univ.fold max ⊥) (funext fun k => pay8_apply q kt r k)))

theorem pay10_apply : k0_pay10 (F := Ideal) kt q mprev (ix2 r (0 : Fin 1)) = stepA (mprev (ix2 r (0 : Fin 1))) (srow q kt r) := by
  unfold k0_pay10 stepA
  exact congrArg (fun z => Ideal.exp (mprev (ix2 r (0 : Fin 1)) - z)) (pay9_apply q kt mprev r)

/-- A [1024, 1] column broadcast along the rows of a wider matrix reads the column at the row. -/
theorem bcol2048_apply (x : FVec Ideal S1024x1 .f32) (k : Fin 2048) :
    broadcastTo S1024x2048 x broadcasts_S1024x1_S1024x2048 (ix2 r k) = x (ix2 r (0 : Fin 1)) :=
  broadcastTo_apply x _ (ix2 r k) (ix2 r (0 : Fin 1)) fun a => by
    match a with
    | ⟨0, _⟩ => show r.val = if (1024 : Nat) = 1 then 0 else r.val; rw [if_neg (by decide)]
    | ⟨1, _⟩ => show 0 = if (1 : Nat) = 1 then 0 else k.val; rw [if_pos rfl]

theorem bcol128_apply (x : FVec Ideal S1024x1 .f32) (d : Fin 128) :
    broadcastTo S1024x128 x broadcasts_S1024x1_S1024x128 (ix2 r d) = x (ix2 r (0 : Fin 1)) :=
  broadcastTo_apply x _ (ix2 r d) (ix2 r (0 : Fin 1)) fun a => by
    match a with
    | ⟨0, _⟩ => show r.val = if (1024 : Nat) = 1 then 0 else r.val; rw [if_neg (by decide)]
    | ⟨1, _⟩ => show 0 = if (1 : Nat) = 1 then 0 else d.val; rw [if_pos rfl]

theorem pay11_apply (k : Fin 2048) :
    k0_pay11 (F := Ideal) kt q mprev (ix2 r k) = stepP (mprev (ix2 r (0 : Fin 1))) (srow q kt r) k := by
  unfold k0_pay11 stepP
  show Ideal.exp (k0_pay8 (F := Ideal) kt q (ix2 r k) - broadcastTo S1024x2048 (k0_pay9 (F := Ideal) kt q mprev) broadcasts_S1024x1_S1024x2048 (ix2 r k)) = _
  rw [pay8_apply, bcol2048_apply, pay9_apply]

theorem pay12_apply (k : Fin 2048) :
    k0_pay12 (F := Ideal) kt q mprev (ix2 r k) = stepP (mprev (ix2 r (0 : Fin 1))) (srow q kt r) k :=
  pay11_apply q kt mprev r k

theorem pay13_apply :
    k0_pay13 (F := Ideal) kt q mprev lprev (ix2 r (0 : Fin 1))
      = stepL (mprev (ix2 r (0 : Fin 1))) (lprev (ix2 r (0 : Fin 1))) (srow q kt r) := by
  unfold k0_pay13 stepL
  show shapeCast S1024x1 (addf (mulf (k0_pay10 (F := Ideal) kt q mprev) lprev) _) shapeCasts_S1024x1_S1024x1 (ix2 r (0 : Fin 1)) = _
  rw [shapeCast_self]
  show k0_pay10 (F := Ideal) kt q mprev (ix2 r (0 : Fin 1)) * lprev (ix2 r (0 : Fin 1)) + shapeCast S1024x1 _ shapeCasts_S1024_S1024x1 (ix2 r (0 : Fin 1)) = _
  rw [pay10_apply, rowsum_apply]
  exact congrArg (_ + ·) (Finset.sum_congr rfl fun k _ => pay11_apply q kt mprev r k)

end Step

/-! ## The numerator, and the epilogue -/

/-- The running numerator at (r, d): the old one rescaled, plus the weights against column `d` of the value tile. -/
theorem pay1_apply (vt : Vec Ideal S1x2048x128 .bf16) (a : FVec Ideal S1024x1 .f32) (p : FVec Ideal S1024x2048 .bf16)
    (accprev : Vec Ideal S1024x128 .f32) (r : Fin 1024) (d : Fin 128) :
    k0_pay1 (F := Ideal) (k0_pay7 vt) a p accprev (ix2 r d)
      = a (ix2 r (0 : Fin 1)) * accprev (ix2 r d) + ∑ k : Fin 2048, p (ix2 r k) * vt (ix3 (0 : Fin 1) k d) := by
  unfold k0_pay1 k0_pay7
  show shapeCast S1024x128 (addf (mulf (broadcastTo S1024x128 a broadcasts_S1024x1_S1024x128) accprev)
      (matmul dot_S1024x2048_S2048x128_S1024x128_1_0_0_1_n_n none p (shapeCast S2048x128 vt shapeCasts_S1x2048x128_S2048x128) (constant S1024x128 .f32 0x00000000#32)))
      shapeCasts_S1024x128_S1024x128 (ix2 r d) = _
  rw [shapeCast_self]
  show broadcastTo S1024x128 a broadcasts_S1024x1_S1024x128 (ix2 r d) * accprev (ix2 r d)
      + matmul dot_S1024x2048_S2048x128_S1024x128_1_0_0_1_n_n none p (shapeCast S2048x128 vt shapeCasts_S1x2048x128_S2048x128) (constant S1024x128 .f32 0x00000000#32) (ix2 r d) = _
  rw [bcol128_apply, matmul_pv]
  exact congrArg (_ + ·) (Finset.sum_congr rfl fun k _ => by rw [shapeCast_1ab_ab_apply])

/-- The bias row broadcast down the rows reads the bias at the column. -/
theorem brow_apply (b : FVec Ideal S512 .f32) (r : Fin 1024) (o : Fin 512) :
    broadcastTo S1024x512 (shapeCast S1x512 b shapeCasts_S512_S1x512) broadcasts_S1x512_S1024x512 (ix2 r o) = b (ix1 o) := by
  rw [broadcastTo_1b_ab_apply, shapeCast_a_1a_apply]

/-- The output block at (0, r, o): the quotient row against column `o` of the transposed weight, plus the bias. -/
theorem pay3_apply (acc : FVec Ideal S1024x128 .f32) (l : FVec Ideal S1024x1 .f32) (w : FVec Ideal S128x512 .bf16) (b : FVec Ideal S512 .f32)
    (r : Fin 1024) (o : Fin 512) :
    k0_pay3 (F := Ideal) acc l w b (ix3 (0 : Fin 1) r o)
      = (∑ d : Fin 128, Ideal.div (acc (ix2 r d)) (l (ix2 r (0 : Fin 1))) * w (ix2 d o)) + b (ix1 o) := by
  unfold k0_pay3
  show shapeCast S1x1024x512 (addf (matmul dot_S1024x128_S128x512_S1024x512_1_0_0_1_n_n none
        (truncf .bf16 (divf acc (broadcastTo S1024x128 l broadcasts_S1024x1_S1024x128)) bitsLt_bf16_f32)
        (shapeCast S128x512 w shapeCasts_S128x512_S128x512) (constant S1024x512 .f32 0x00000000#32))
      (broadcastTo S1024x512 (shapeCast S1x512 b shapeCasts_S512_S1x512) broadcasts_S1x512_S1024x512))
      shapeCasts_S1024x512_S1x1024x512 (ix3 (0 : Fin 1) r o) = _
  rw [shapeCast_ab_1ab_apply, shapeCast_self]
  show matmul dot_S1024x128_S128x512_S1024x512_1_0_0_1_n_n none _ w (constant S1024x512 .f32 0x00000000#32) (ix2 r o)
      + broadcastTo S1024x512 (shapeCast S1x512 b shapeCasts_S512_S1x512) broadcasts_S1x512_S1024x512 (ix2 r o) = _
  rw [matmul_ow, brow_apply]
  refine congrArg (· + b (ix1 o)) (Finset.sum_congr rfl fun d _ => ?_)
  show Ideal.div (acc (ix2 r d)) (broadcastTo S1024x128 l broadcasts_S1024x1_S1024x128 (ix2 r d)) * w (ix2 d o) = _
  rw [bcol128_apply]

/-! ## The reset values, and the first step from them -/

theorem pay4_apply (j : S1024x1.Idx) : k0_pay4 (F := Ideal) j = ⊥ := by
  unfold k0_pay4
  show shapeCast S1024x1 (broadcast S1024x1 (Ideal.ofBits .f32 0xFF800000#32)) shapeCasts_S1024x1_S1024x1 j = _
  rw [shapeCast_self]
  exact ofBits_neg_inf

theorem pay5_apply (j : S1024x1.Idx) : k0_pay5 (F := Ideal) j = 0 := by
  unfold k0_pay5
  show shapeCast S1024x1 (broadcast S1024x1 (Ideal.ofBits .f32 0x00000000#32)) shapeCasts_S1024x1_S1024x1 j = _
  rw [shapeCast_self]
  exact Ideal.ofBits_zero_f32

theorem pay6_apply (j : S1024x128.Idx) : k0_pay6 (F := Ideal) j = 0 := by
  unfold k0_pay6
  show shapeCast S1024x128 (broadcast S1024x128 (Ideal.ofBits .f32 0x00000000#32)) shapeCasts_S1024x128_S1024x128 j = _
  rw [shapeCast_self]
  exact Ideal.ofBits_zero_f32

section Compose
variable (i i' : grid0.Coords) (q q' : Vec Ideal S1x1024x128 .bf16) (k k' v v' : Vec Ideal S1x4096x128 .bf16)
  (w : Vec Ideal S128x512 .bf16) (b : Vec Ideal S512 .f32) (r : Fin 1024)

theorem mA_apply : mA i' q' k' (ix2 r (0 : Fin 1)) = stepM ⊥ (srow q' (tile i' k') r) := by
  unfold mA k0_pay2
  refine (congrFun (shapeCast_self (k0_pay9 (F := Ideal) (tile i' k') q' (k0_pay4 (F := Ideal))) shapeCasts_S1024x1_S1024x1)
    (ix2 r (0 : Fin 1))).trans ?_
  rw [pay9_apply, pay4_apply]

theorem lA_apply : lA i' q' k' (ix2 r (0 : Fin 1)) = stepL ⊥ 0 (srow q' (tile i' k') r) := by
  unfold lA
  rw [pay13_apply, pay4_apply, pay5_apply]

theorem accA_apply (d : Fin 128) :
    accA i' q' k' v' (ix2 r d) = stepAcc ⊥ 0 (srow q' (tile i' k') r) (fun κ => tile i' v' (ix3 (0 : Fin 1) κ d)) := by
  unfold accA stepAcc
  rw [pay1_apply, pay10_apply, pay4_apply, pay6_apply]
  exact congrArg (_ + ·) (Finset.sum_congr rfl fun κ _ => by rw [pay12_apply, pay4_apply])

/-- The output block at (0, r, o): two online-softmax steps from the reset state over the two tiles' rows of scores,
    against column `o` of the transposed weight, plus the bias. -/
theorem outB_flash (o : Fin 512) :
    outB i q k v w b (mA i' q' k') (lA i' q' k') (accA i' q' k' v') (ix3 (0 : Fin 1) r o)
      = (∑ d : Fin 128, flash (srow q' (tile i' k') r) (srow q (tile i k) r)
            (fun κ => tile i' v' (ix3 (0 : Fin 1) κ d)) (fun κ => tile i v (ix3 (0 : Fin 1) κ d)) * w (ix2 d o))
          + b (ix1 o) := by
  unfold outB
  rw [pay3_apply]
  refine congrArg (· + b (ix1 o)) (Finset.sum_congr rfl fun d _ => congrArg (· * w (ix2 d o)) ?_)
  unfold flash
  rw [pay1_apply, pay10_apply, pay13_apply, mA_apply, lA_apply, accA_apply]
  unfold stepAcc
  refine congrArg (fun z => Ideal.div (_ + z) _) (Finset.sum_congr rfl fun κ _ => ?_)
  rw [pay12_apply, mA_apply]

end Compose

end Cert.KernelIdeal.Attn

end
-- ==== Proof.KernelRun.lean ====
/-
  The kernel's result array.

  The output array [8, 4096, 512] is written back one [1, 1024, 512] block per (batch, query tile), at the grid point
  with key tile 1; that block is the second online-softmax step over what the point before (same batch and query tile,
  key tile 0) left in the three running buffers. The query block at either point is rows 1024·(query tile) onwards of
  batch b of Q, the key and value tiles are rows 0..2047 and 2048..4095 of batch b of K and V, the weight block is
  the whole transposed W and the bias block the whole bias. So the block's entry at (0, r, o) is the specification's
  kernel-side array at (b, 1024·(query tile) + r, o), and the blocks cover the array.
-/
import proofs.«415526_j88252987998888_3_alg».proof.Proof.Pieces
import proofs.«415526_j88252987998888_3_alg».proof.Proof.KernelRead
import proofs.«415526_j88252987998888_3_alg».proof.Proof.Spec
import proofs.«415526_j88252987998888_3_alg».proof.Proof.Gen.KernelIdeal.Value
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Attn

open Cert.KernelIdeal Cert.KernelIdeal.Gen Cert.Attn

variable (m : (ℓ : Loc nD τ sig) → Buf (Elt Ideal) ℓ) (ρ : Dev nD → PrngReg)

/-! ## The arrays the region finds -/

theorem V_v0 (c : Dev nD) : (V m c main_v0 : S8x4096x128.Idx → EReal) = m ((c : Thread nD τ).loc main_arg0) := by
  dsimp only [Gen.V, Gen.hostOps0]; after_results; rfl
theorem V_v1 (c : Dev nD) : (V m c main_v1 : S8x4096x128.Idx → EReal) = m ((c : Thread nD τ).loc main_arg1) := by
  dsimp only [Gen.V, Gen.hostOps0]; after_results; rfl
theorem V_v2 (c : Dev nD) : (V m c main_v2 : S8x4096x128.Idx → EReal) = m ((c : Thread nD τ).loc main_arg2) := by
  dsimp only [Gen.V, Gen.hostOps0]; after_results; rfl
/-- The weight block's array is W transposed. -/
theorem V_v4 (c : Dev nD) : (V m c main_v4 : S128x512.Idx → EReal)
    = transpose S128x512 [1, 0] (m ((c : Thread nD τ).loc main_arg3)) transposes_S512x128_S128x512_1_0 := by
  dsimp only [Gen.V, Gen.hostOps0]; after_results; rfl

/-! ## The index maps, decided over the grid -/

theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0 ∧ win0_4.index t (0 : Fin 1) = 0
    ∧ win0_5.index t (2 : Fin 3) = 0
    ∧ win0_5.index t (0 : Fin 3) < 8 ∧ win0_5.index t (1 : Fin 3) < 4
    ∧ k0_off1 (grid0.coords t) = ![0, 2048 * (t.val % 2), 0] :=
  (by decide +kernel : ∀ t : Fin grid0.N, _)

/-- A point with key tile 1 and the point before it share batch and query tile. -/
theorem idx_pred : ∀ t : Fin cfg0.N, t.val % 2 = 1 → ∀ h : t.val - 1 < cfg0.N,
    win0_5.index ⟨t.val - 1, h⟩ (0 : Fin 3) = win0_5.index t (0 : Fin 3)
    ∧ win0_5.index ⟨t.val - 1, h⟩ (1 : Fin 3) = win0_5.index t (1 : Fin 3) :=
  (by decide +kernel : ∀ t : Fin grid0.N, t.val % 2 = 1 → ∀ h : t.val - 1 < grid0.N, _)

/-- Every (batch, query tile) is the block index of some point with key tile 1. -/
theorem idx_onto : ∀ (q0 : Fin 8) (q1 : Fin 4), ∃ t : Fin cfg0.N, t.val % 2 = 1 ∧ win0_5.index t = ![q0.val, q1.val, 0] :=
  (by decide +kernel : ∀ (q0 : Fin 8) (q1 : Fin 4), ∃ t : Fin grid0.N, t.val % 2 = 1 ∧ win0_5.index t = ![q0.val, q1.val, 0])

/-! ## The blocks, by their literal types -/

abbrev qblk (c : Dev nD) (t : Fin cfg0.N) : Vec Ideal S1x1024x128 .bf16 := iblk m c 0 t
abbrev kblk (c : Dev nD) (t : Fin cfg0.N) : Vec Ideal S1x4096x128 .bf16 := iblk m c 1 t
abbrev vblk (c : Dev nD) (t : Fin cfg0.N) : Vec Ideal S1x4096x128 .bf16 := iblk m c 2 t
abbrev wblk (c : Dev nD) (t : Fin cfg0.N) : Vec Ideal S128x512 .bf16 := iblk m c 3 t
abbrev bblk (c : Dev nD) (t : Fin cfg0.N) : Vec Ideal S512 .f32 := iblk m c 4 t

/-- The query block at (0, r, d) is Q at (block batch, 1024 · (block query tile) + r, d). -/
theorem qblk_apply (c : Dev nD) (t : Fin cfg0.N) (r : Fin 1024) (d : Fin 128) (i : S8x4096x128.Idx)
    (h0 : (i 0).val = win0_5.index t (0 : Fin 3)) (h1 : (i 1).val = win0_5.index t (1 : Fin 3) * 1024 + r.val) (h2 : (i 2).val = d.val) :
    qblk m c t (ix3 (0 : Fin 1) r d) = m ((c : Thread nD τ).loc main_arg0) i := by
  obtain ⟨e0, e1, e2, -⟩ := idx_facts t
  unfold qblk iblk
  rw [View.read_apply]
  show V m c main_v0 _ = _
  rw [V_v0]
  refine congrArg (m ((c : Thread nD τ).loc main_arg0)) (funext fun a => Fin.ext ?_)
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 128 + 1 * d.val = (i 2).val; omega

/-- The key tile at (0, κ, d) is K at (block batch, 2048 · (key tile) + κ, d). -/
theorem ktile_apply (c : Dev nD) (t : Fin cfg0.N) (κ : Fin 2048) (d : Fin 128) (i : S8x4096x128.Idx)
    (h0 : (i 0).val = win0_5.index t (0 : Fin 3)) (h1 : (i 1).val = 2048 * (t.val % 2) + κ.val) (h2 : (i 2).val = d.val) :
    tile (grid0.coords t) (kblk m c t) (ix3 (0 : Fin 1) κ d) = m ((c : Thread nD τ).loc main_arg1) i := by
  have hf := idx_facts t
  have e0 : win0_1.index t (0 : Fin 3) = win0_5.index t (0 : Fin 3) := hf.2.2.2.1
  have e1 : win0_1.index t (1 : Fin 3) = 0 := hf.2.2.2.2.1
  have e2 : win0_1.index t (2 : Fin 3) = 0 := hf.2.2.2.2.2.1
  have eo : k0_off1 (grid0.coords t) = ![0, 2048 * (t.val % 2), 0] := hf.2.2.2.2.2.2.2.2.2.2.2.2.2.2.2
  have o0 : k0_off1 (grid0.coords t) 0 = 0 := by rw [eo]; rfl
  have o1 : k0_off1 (grid0.coords t) 1 = 2048 * (t.val % 2) := by rw [eo]; rfl
  have o2 : k0_off1 (grid0.coords t) 2 = 0 := by rw [eo]; rfl
  unfold tile kblk iblk
  show ((cfg0.win 1).blk t).view.read (Elt Ideal) (V m c (Pipeline.arrRef spec0 1)) _ = _
  rw [View.read_apply]
  show V m c main_v1 _ = _
  rw [V_v1]
  refine congrArg (m ((c : Thread nD τ).loc main_arg1)) (funext fun a => Fin.ext ?_)
  match a with
  | ⟨0, _⟩ => show win0_1.index t (0 : Fin 3) * 1 + 1 * (k0_off1 (grid0.coords t) 0 + 1 * 0) = (i 0).val; omega
  | ⟨1, _⟩ => show win0_1.index t (1 : Fin 3) * 4096 + 1 * (k0_off1 (grid0.coords t) 1 + 1 * κ.val) = (i 1).val; omega
  | ⟨2, _⟩ => show win0_1.index t (2 : Fin 3) * 128 + 1 * (k0_off1 (grid0.coords t) 2 + 1 * d.val) = (i 2).val; omega

/-- The value tile likewise. -/
theorem vtile_apply (c : Dev nD) (t : Fin cfg0.N) (κ : Fin 2048) (d : Fin 128) (i : S8x4096x128.Idx)
    (h0 : (i 0).val = win0_5.index t (0 : Fin 3)) (h1 : (i 1).val = 2048 * (t.val % 2) + κ.val) (h2 : (i 2).val = d.val) :
    tile (grid0.coords t) (vblk m c t) (ix3 (0 : Fin 1) κ d) = m ((c : Thread nD τ).loc main_arg2) i := by
  have hf := idx_facts t
  have e0 : win0_2.index t (0 : Fin 3) = win0_5.index t (0 : Fin 3) := hf.2.2.2.2.2.2.1
  have e1 : win0_2.index t (1 : Fin 3) = 0 := hf.2.2.2.2.2.2.2.1
  have e2 : win0_2.index t (2 : Fin 3) = 0 := hf.2.2.2.2.2.2.2.2.1
  have eo : k0_off1 (grid0.coords t) = ![0, 2048 * (t.val % 2), 0] := hf.2.2.2.2.2.2.2.2.2.2.2.2.2.2.2
  have o0 : k0_off1 (grid0.coords t) 0 = 0 := by rw [eo]; rfl
  have o1 : k0_off1 (grid0.coords t) 1 = 2048 * (t.val % 2) := by rw [eo]; rfl
  have o2 : k0_off1 (grid0.coords t) 2 = 0 := by rw [eo]; rfl
  unfold tile vblk iblk
  show ((cfg0.win 2).blk t).view.read (Elt Ideal) (V m c (Pipeline.arrRef spec0 2)) _ = _
  rw [View.read_apply]
  show V m c main_v2 _ = _
  rw [V_v2]
  refine congrArg (m ((c : Thread nD τ).loc main_arg2)) (funext fun a => Fin.ext ?_)
  match a with
  | ⟨0, _⟩ => show win0_2.index t (0 : Fin 3) * 1 + 1 * (k0_off1 (grid0.coords t) 0 + 1 * 0) = (i 0).val; omega
  | ⟨1, _⟩ => show win0_2.index t (1 : Fin 3) * 4096 + 1 * (k0_off1 (grid0.coords t) 1 + 1 * κ.val) = (i 1).val; omega
  | ⟨2, _⟩ => show win0_2.index t (2 : Fin 3) * 128 + 1 * (k0_off1 (grid0.coords t) 2 + 1 * d.val) = (i 2).val; omega

/-- The weight block at (d, o) is W at (o, d). -/
theorem wblk_apply (c : Dev nD) (t : Fin cfg0.N) (d : Fin 128) (o : Fin 512) :
    wblk m c t (ix2 d o) = m ((c : Thread nD τ).loc main_arg3) (ix2 o d) := by
  have hf := idx_facts t
  have e0 : win0_3.index t (0 : Fin 2) = 0 := hf.2.2.2.2.2.2.2.2.2.1
  have e1 : win0_3.index t (1 : Fin 2) = 0 := hf.2.2.2.2.2.2.2.2.2.2.1
  unfold wblk iblk
  rw [View.read_apply]
  show V m c main_v4 _ = _
  rw [V_v4]
  refine (congrArg (transpose S128x512 [1, 0] (m ((c : Thread nD τ).loc main_arg3)) transposes_S512x128_S128x512_1_0)
    (funext fun a => Fin.ext ?_ : _ = ix2 d o)).trans (transpose_ix2_apply _ _ d o)
  match a with
  | ⟨0, _⟩ => show win0_3.index t (0 : Fin 2) * 128 + 1 * d.val = d.val; omega
  | ⟨1, _⟩ => show win0_3.index t (1 : Fin 2) * 512 + 1 * o.val = o.val; omega

/-- The bias block is the bias. -/
theorem bblk_apply (c : Dev nD) (t : Fin cfg0.N) (o : Fin 512) :
    bblk m c t (ix1 o) = m ((c : Thread nD τ).loc main_arg4) (ix1 o) := by
  have hf := idx_facts t
  have e0 : win0_4.index t (0 : Fin 1) = 0 := hf.2.2.2.2.2.2.2.2.2.2.2.1
  unfold bblk iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 1) * 512 + 1 * o.val = o.val; omega

/-! ## Rows of scores and columns of values, by halves of the key axis -/

/-- Row `r` of a point's query block against its key tile is the score row (b, n) restricted to the point's half of the keys. -/
theorem srow_eq (c : Dev nD) (s : Fin cfg0.N) (b : Fin 8) (n : Fin 4096) (r : Fin 1024) (half : Fin 2048 → Fin 4096)
    (hb : b.val = win0_5.index s (0 : Fin 3)) (hn : n.val = win0_5.index s (1 : Fin 3) * 1024 + r.val)
    (hh : ∀ κ, (half κ).val = 2048 * (s.val % 2) + κ.val) :
    srow (qblk m c s) (tile (grid0.coords s) (kblk m c s)) r
      = fun κ => score (m ((c : Thread nD τ).loc main_arg0)) (m ((c : Thread nD τ).loc main_arg1)) b n (half κ) := by
  funext κ
  unfold srow score
  refine congrArg (· * scale) (Finset.sum_congr rfl fun d _ => ?_)
  rw [qblk_apply m c s r d (ix3 b n d) hb hn rfl, ktile_apply m c s κ d (ix3 b (half κ) d) hb (hh κ) rfl]

/-- Column `d` of a point's value tile is column `d` of batch b of V restricted to the point's half of the keys. -/
theorem vcol_eq (c : Dev nD) (s : Fin cfg0.N) (b : Fin 8) (d : Fin 128) (half : Fin 2048 → Fin 4096)
    (hb : b.val = win0_5.index s (0 : Fin 3)) (hh : ∀ κ, (half κ).val = 2048 * (s.val % 2) + κ.val) :
    (fun κ => tile (grid0.coords s) (vblk m c s) (ix3 (0 : Fin 1) κ d))
      = fun κ => (m ((c : Thread nD τ).loc main_arg2)) (ix3 b (half κ) d) :=
  funext fun κ => vtile_apply m c s κ d (ix3 b (half κ) d) hb (hh κ) rfl

/-! ## What a point with key tile 1 writes back -/

/-- The result array: the specification's kernel-side array of the arguments. -/
abbrev result (c : Dev nD) : Buf (Elt Ideal) ((c : Thread nD τ).loc main_v5) :=
  outK (m ((c : Thread nD τ).loc main_arg0)) (m ((c : Thread nD τ).loc main_arg1)) (m ((c : Thread nD τ).loc main_arg2)) (m ((c : Thread nD τ).loc main_arg3)) (m ((c : Thread nD τ).loc main_arg4))

/-- The block at entry (0, r, o) is the result array at (b, n, o), for (b, n) the block's batch and row. -/
theorem block_entry (c : Dev nD) (t : Fin cfg0.N) (h1 : t.val % 2 = 1) (hlt : t.val - 1 < cfg0.N)
    (b : Fin 8) (n : Fin 4096) (r : Fin 1024) (o : Fin 512)
    (hb : b.val = win0_5.index t (0 : Fin 3)) (hn : n.val = win0_5.index t (1 : Fin 3) * 1024 + r.val) :
    outB (grid0.coords t) (qblk m c t) (kblk m c t) (vblk m c t) (wblk m c t) (bblk m c t)
        (mA (grid0.coords ⟨t.val - 1, hlt⟩) (qblk m c ⟨t.val - 1, hlt⟩) (kblk m c ⟨t.val - 1, hlt⟩))
        (lA (grid0.coords ⟨t.val - 1, hlt⟩) (qblk m c ⟨t.val - 1, hlt⟩) (kblk m c ⟨t.val - 1, hlt⟩))
        (accA (grid0.coords ⟨t.val - 1, hlt⟩) (qblk m c ⟨t.val - 1, hlt⟩) (kblk m c ⟨t.val - 1, hlt⟩) (vblk m c ⟨t.val - 1, hlt⟩))
        (ix3 (0 : Fin 1) r o)
      = result m c (ix3 b n o) := by
  obtain ⟨p0, p1⟩ := idx_pred t h1 hlt
  have hb' : b.val = win0_5.index ⟨t.val - 1, hlt⟩ (0 : Fin 3) := hb.trans p0.symm
  have hn' : n.val = win0_5.index ⟨t.val - 1, hlt⟩ (1 : Fin 3) * 1024 + r.val := by rw [p1]; exact hn
  have hlo : ∀ κ : Fin 2048, (lo κ).val = 2048 * ((⟨t.val - 1, hlt⟩ : Fin cfg0.N).val % 2) + κ.val := fun κ => by
    show κ.val = 2048 * ((t.val - 1) % 2) + κ.val; omega
  have hhi : ∀ κ : Fin 2048, (hi κ).val = 2048 * (t.val % 2) + κ.val := fun κ => by
    show 2048 + κ.val = 2048 * (t.val % 2) + κ.val; omega
  refine (outB_flash (grid0.coords t) (grid0.coords ⟨t.val - 1, hlt⟩) (qblk m c t) (qblk m c ⟨t.val - 1, hlt⟩)
    (kblk m c t) (kblk m c ⟨t.val - 1, hlt⟩) (vblk m c t) (vblk m c ⟨t.val - 1, hlt⟩) (wblk m c t) (bblk m c t) r o).trans ?_
  rw [srow_eq m c ⟨t.val - 1, hlt⟩ b n r lo hb' hn' hlo, srow_eq m c t b n r hi hb hn hhi, bblk_apply]
  show _ = (∑ d : Fin 128, flashAttn (m ((c : Thread nD τ).loc main_arg0)) (m ((c : Thread nD τ).loc main_arg1)) (m ((c : Thread nD τ).loc main_arg2)) b n d * (m ((c : Thread nD τ).loc main_arg3)) (ix2 o d)) + (m ((c : Thread nD τ).loc main_arg4)) (ix1 o)
  refine congrArg (· + (m ((c : Thread nD τ).loc main_arg4)) (ix1 o)) (Finset.sum_congr rfl fun d _ => ?_)
  rw [vcol_eq m c ⟨t.val - 1, hlt⟩ b d lo hb' hlo, vcol_eq m c t b d hi hb hhi, wblk_apply]
  rfl

/-- WHAT A POINT WITH KEY TILE 1 WRITES BACK is its block of the result array. -/
theorem flushed_eq (c : Dev nD) (t : Fin cfg0.N) (hf : (cfg0.win 5).flush t = true) :
    (dats m 0 c).flushed 5 t = ((cfg0.win 5).blk t).view.read (Elt Ideal) (result m c) := by
  have h1 : t.val % 2 = 1 := (flush0_5 t).mp hf
  have h0 : ¬t.val % 2 = 0 := by omega
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  rw [Value.flushed5_B m c t h0 h1, out_B_5]
  rw [show outsAt0 m c (t.val - 1) (Nat.lt_of_le_of_lt (Nat.sub_le _ _) t.isLt)
      = outsAt0 m c (⟨t.val - 1, hlt⟩ : Fin cfg0.N).val (⟨t.val - 1, hlt⟩ : Fin cfg0.N).isLt from rfl,
    outsAt0_A m c ⟨t.val - 1, hlt⟩ h0' h1']
  dsimp only
  rw [sout_A_0, sout_A_1, sout_A_2]
  obtain ⟨-, -, -, -, -, -, -, -, -, -, -, -, e52, lb, lq, -⟩ := idx_facts t
  funext j
  have hj0 : (j 0).val < 1 := (j 0).isLt
  have hj1 : (j 1).val < 1024 := (j 1).isLt
  have hj2 : (j 2).val < 512 := (j 2).isLt
  rw [View.read_apply]
  have hL : (cfg0.win 5).xinj (grid0.coords t) j = ix3 (0 : Fin 1) (⟨(j 1).val, hj1⟩ : Fin 1024) (⟨(j 2).val, hj2⟩ : Fin 512) :=
    funext fun a => Fin.ext (by
      match a with
      | ⟨0, _⟩ => show (j 0).val = 0; omega
      | ⟨1, _⟩ => rfl
      | ⟨2, _⟩ => rfl)
  have hR : ((cfg0.win 5).blk t).view.emb j
      = ix3 (⟨win0_5.index t (0 : Fin 3), lb⟩ : Fin 8) (⟨win0_5.index t (1 : Fin 3) * 1024 + (j 1).val, by omega⟩ : Fin 4096)
          (⟨(j 2).val, hj2⟩ : Fin 512) :=
    funext fun a => Fin.ext (by
      match a with
      | ⟨0, _⟩ => show win0_5.index t (0 : Fin 3) * 1 + 1 * (j 0).val = win0_5.index t (0 : Fin 3); omega
      | ⟨1, _⟩ => show win0_5.index t (1 : Fin 3) * 1024 + 1 * (j 1).val = win0_5.index t (1 : Fin 3) * 1024 + (j 1).val; omega
      | ⟨2, _⟩ => show win0_5.index t (2 : Fin 3) * 512 + 1 * (j 2).val = (j 2).val; omega)
  show outB _ _ _ _ _ _ _ _ _ ((cfg0.win 5).xinj (grid0.coords t) j) = result m c (((cfg0.win 5).blk t).view.emb j)
  rw [hL, hR]
  exact block_entry m c t h1 hlt _ _ _ _ rfl rfl

/-- An index of the array is in point `t`'s block iff each coordinate is in the block's range on its axis. -/
theorem mem_blk (t : Fin cfg0.N) (i : S8x4096x512.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v5).slice (win0_5.rect t)).set ↔ _
  rw [View.set_slice_whole, Rect.mem_set_unit]
  exact Iff.rfl

/-- Every index of the result array is in the block of some point that writes back. -/
theorem covered (i : S8x4096x512.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 512 := (i 2).isLt
  obtain ⟨t, ht1, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, (flush0_5 t).mpr ht1, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- THE RESULT ARRAY after the run. -/
theorem final (c : Dev nD) : (dats m 0 c).arrAt 5 cfg0.N = result m c :=
  (dats m 0 c).arrAt_eq_of_cover 5 (result m c) (flushed_eq m c) covered

/-- The run, read: the result array at the specification's kernel-side array of the arguments, the arguments unchanged. -/
theorem run : θ_run (defs (F := Ideal)) (onTc (τ := τ) (main (F := Ideal))) ⟨m, fun _ => 0, ρ⟩ fun r => ∀ c : Dev nD,
      r.2.mem ((c : Thread nD τ).loc main_v5) = Cert.Attn.outK (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Attn

end
-- ==== Proof.lean ====
/-
  The certificate's claim, assembled from its five conjuncts.

  Three conjuncts say that a program runs to the end with its five argument arrays (Q, K, V, the weight matrix
  and the bias) unchanged: the kernel over machine words, the kernel over the extended reals, and the reference
  over the extended reals. For the kernel this is its frame; for the reference it is its run with the result
  forgotten. The fourth conjunct, that the kernel over the extended reals is the kernel's own text read there,
  has nothing to show: no operation was rewritten. The fifth says that over the extended reals, from memories
  that agree on the five arrays, kernel and reference end with the same result array.

  The law that joins the two sides of the fifth. The kernel's run ends with `outK`: per query row the online
  softmax over two tiles of 2048 keys (a running maximum, a running sum and a running numerator, rescaled by
  exp (old maximum - new maximum) at each tile, one division at the end), then the linear layer. The reference's
  run ends with `outR`: the softmax of the whole row of 4096 scores, contracted with V, then the same linear
  layer. For Q, K, V with real entries and a real scale the two arrays are equal, because
  exp (s - m₁) = exp (m₀ - m₁) · exp (s - m₀) and the common factor moves out of the sums and cancels in the
  quotient. Moving a factor across a sum and cancelling it fail at the infinities, so the law needs the entries
  to be real: that is what the precondition "every input is finite" gives for Q, K and V, and the scale is a
  normal f32 number.
-/
import proofs.«415526_j88252987998888_3_alg».proof.Defs
import proofs.«415526_j88252987998888_3_alg».proof.Proof.Gen.Kernel
import proofs.«415526_j88252987998888_3_alg».proof.Proof.Gen.Kernel.Skeleton
import proofs.«415526_j88252987998888_3_alg».proof.Proof.Gen.Kernel.Launch
import proofs.«415526_j88252987998888_3_alg».proof.Proof.Gen.Kernel.Points
import proofs.«415526_j88252987998888_3_alg».proof.Proof.Gen.Kernel.Frame
import proofs.«415526_j88252987998888_3_alg».proof.Proof.Gen.KernelIdeal
import proofs.«415526_j88252987998888_3_alg».proof.Proof.Gen.KernelIdeal.Skeleton
import proofs.«415526_j88252987998888_3_alg».proof.Proof.Gen.KernelIdeal.Launch
import proofs.«415526_j88252987998888_3_alg».proof.Proof.Gen.KernelIdeal.Points
import proofs.«415526_j88252987998888_3_alg».proof.Proof.Gen.KernelIdeal.Frame
import proofs.«415526_j88252987998888_3_alg».proof.Proof.Gen.ReferenceIdeal
import proofs.«415526_j88252987998888_3_alg».proof.Proof.Gen.KernelIdeal.Value
import proofs.«415526_j88252987998888_3_alg».proof.Proof.Gen.ReferenceIdeal.Run
import proofs.«415526_j88252987998888_3_alg».proof.Proof.Gen.ReferenceIdeal.Read
import proofs.«415526_j88252987998888_3_alg».proof.Proof.Gen.Pre_finite_inputs
import proofs.«415526_j88252987998888_3_alg».proof.Proof.RefRead
import proofs.«415526_j88252987998888_3_alg».proof.Proof.Finite
import proofs.«415526_j88252987998888_3_alg».proof.Proof.Bridge
import proofs.«415526_j88252987998888_3_alg».proof.Proof.KernelRun
import Idealize.ShloMosaic.Adequacy
import Idealize.ShloMosaic.Init

noncomputable section

namespace Cert.Proof

open Idealize.ShloMosaic Idealize.ShloMosaic.TcCoe Idealize.SL.Sem

/-- The kernel over machine words runs to the end and leaves its arguments as they were. -/
theorem frame_kernel : Cert.frame_Kernel := fun m ρ _ => Cert.Kernel.Gen.frame m ρ

/-- The kernel over the extended reals runs to the end and leaves its arguments as they were. -/
theorem frame_kernelIdeal : Cert.frame_KernelIdeal := fun m ρ _ => Cert.KernelIdeal.Gen.frame m ρ

/-- The reference runs to the end and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel ends with `outK` of its arguments and the reference with `outR` of its own;
    the arguments agree, Q, K and V have real entries by the precondition, and then `outK = outR`. -/
theorem algebraic : Cert.algebraic_KernelIdeal_ReferenceIdeal := by
  intro m ρ m' ρ' hpre hagree
  refine ⟨fun c => Cert.Attn.outK
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq,
    (hagree c).1, (hagree c).2.1, (hagree c).2.2.1, (hagree c).2.2.2.1, (hagree c).2.2.2.2]
  obtain ⟨hQ, hK, hV⟩ := Cert.Attn.Finite.real_of_pre _ _ _ _ _ (hpre c)
  exact (Cert.Attn.outK_eq_outR _ _ _ _ _ hQ hK hV Cert.Attn.Finite.scale_real).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
